-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S800000 : Shape := ⟨1, ![800000]⟩
abbrev S100x128 : Shape := ⟨2, ![100, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S800000 : S_.BroadcastsInDim S800000 (![] : Fin 0 → Fin S800000.rank)
  reducesTo_S800000_S_d0 : S800000.ReducesTo [0] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x100 .f32) (main_arg1 : IVec S800000 32) (main_arg2 : IVec S800000 32) (main_arg3 : FVec F S800000 .f32) (main_arg4 : FVec F S100x128 .f32) (main_arg5 : FVec F S128 .f32) (main_arg6 : FVec F S128x40 .f32) (main_arg7 : FVec F S40 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100x128 .f32 := Host.absf main_arg4
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x100 : Shape := ⟨2, ![50000, 100]⟩
abbrev S800000 : Shape := ⟨1, ![800000]⟩
abbrev S100x128 : Shape := ⟨2, ![100, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x100 : Shape := ⟨2, ![800000, 100]⟩
abbrev S50000x128 : Shape := ⟨2, ![50000, 128]⟩
abbrev S5000x100 : Shape := ⟨2, ![5000, 100]⟩
abbrev S5000x128 : Shape := ⟨2, ![5000, 128]⟩
abbrev S1x128 : Shape := ⟨2, ![1, 128]⟩
abbrev S800000x128 : Shape := ⟨2, ![800000, 128]⟩
abbrev S50000x40 : Shape := ⟨2, ![50000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 42
  | .vmem => 16
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x100, .f32⟩
  | .hbm, ⟨17, _⟩ => ⟨S800000x1, .f32⟩
  | .hbm, ⟨18, _⟩ => ⟨S800000x100, .f32⟩
  | .hbm, ⟨19, _⟩ => ⟨S800000x100, .f32⟩
  | .hbm, ⟨20, _⟩ => ⟨S_, .f32⟩
  | .hbm, ⟨21, _⟩ => ⟨S50000x100, .f32⟩
  | .hbm, ⟨22, _⟩ => ⟨S800000x1, .i32⟩
  | .hbm, ⟨23, _⟩ => ⟨S50000x100, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x40, .f32⟩
  | .local _ .vmem, ⟨0, _⟩ => ⟨S5000x100, .f32⟩
  | .local _ .vmem, ⟨1, _⟩ => ⟨S5000x100, .f32⟩
  | .local _ .vmem, ⟨2, _⟩ => ⟨S5000x100, .f32⟩
  | .local _ .vmem, ⟨3, _⟩ => ⟨S5000x100, .f32⟩
  | .local _ .vmem, ⟨4, _⟩ => ⟨S100x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x128_S5000x128_1_0_0_1_n_n_wf : DotDims.WF S5000x100 S100x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x100.size a ≤ S50000x100.size a
  hwx0_1 : ∀ i : grid0.Coords, EltTy.bits .f32 = 32 ∨ (Rect.block (s := S50000x100) S5000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .f32 = 32 ∨ (Rect.block (s := S100x128) S100x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x100 : Shape := ⟨2, ![50000, 100]⟩
abbrev S800000 : Shape := ⟨1, ![800000]⟩
abbrev S100x128 : Shape := ⟨2, ![100, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x100 : Shape := ⟨2, ![800000, 100]⟩
abbrev S50000x128 : Shape := ⟨2, ![50000, 128]⟩
abbrev S1x128 : Shape := ⟨2, ![1, 128]⟩
abbrev S800000x128 : Shape := ⟨2, ![800000, 128]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x100, .f32⟩
  | .hbm, ⟨17, _⟩ => ⟨S800000x1, .f32⟩
  | .hbm, ⟨18, _⟩ => ⟨S800000x100, .f32⟩
  | .hbm, ⟨19, _⟩ => ⟨S800000x100, .f32⟩
  | .hbm, ⟨20, _⟩ => ⟨S_, .f32⟩
  | .hbm, ⟨21, _⟩ => ⟨S50000x100, .f32⟩
  | .hbm, ⟨22, _⟩ => ⟨S800000x1, .i32⟩
  | .hbm, ⟨23, _⟩ => ⟨S50000x100, .f32⟩
  | .hbm, ⟨24, _⟩ => ⟨S50000x100, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x40, .f32⟩
  | .hbm, ⟨50, _⟩ => ⟨S1x40, .f32⟩
  | .hbm, ⟨51, _⟩ => ⟨S50000x40, .f32⟩
  | .hbm, ⟨52, _⟩ => ⟨S50000x40, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x40, .f32⟩
  | .hbm, ⟨60, _⟩ => ⟨S50000x40, .f32⟩
  | .hbm, ⟨61, _⟩ => ⟨S50000x40, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S50000x1, .f32⟩
  | .hbm, ⟨66, _⟩ => ⟨S50000x40, .f32⟩
  | .hbm, ⟨67, _⟩ => ⟨S50000x40, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_call1_cst_0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_cst_1 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_v37 : Ref sig .tc := ⟨.hbm, 67, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x128_S50000x128_1_0_0_1_n_n_wf : DotDims.WF S50000x100 S100x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The function both programs compute, entry by entry, on the extended reals.

  A layer takes a feature matrix `x` and its neighbourhood aggregate `tx` (the sparse adjacency applied to `x`), adds
  them, multiplies by a weight matrix and adds a bias row: entry (p, q) is the sum over k of
  (x (p, k) + tx (p, k)) * W (k, q), plus b q. It depends on row p of `x` and of `tx` only, which is why a kernel may
  compute it on a block of rows at a time. The first layer ends in the maximum with zero, the second in a row's
  log-softmax: with M the row's maximum, entry q is (z q - M) - log (sum over j of exp (z j - M)).
-/
import Idealize.ShloMosaic.PureOps.Ideal
import Idealize.ShloMosaic.Lib.ValueIdx
import Mathlib.Data.Finset.Fold

noncomputable section

namespace Cert.Gcn

open Idealize.ShloMosaic Idealize.ShloMosaic.ValueIdx

/-- Entry (p, q) of the linear part of a layer: the sum over k of (x (p, k) + tx (p, k)) * W (k, q), plus b q. -/
def linAt {N K M : Nat} (x tx : FVec Ideal ⟨2, ![N, K]⟩ .f32) (W : FVec Ideal ⟨2, ![K, M]⟩ .f32)
    (b : FVec Ideal ⟨1, ![M]⟩ .f32) (p : Fin N) (q : Fin M) : EReal :=
  (∑ k : Fin K, (x (ix2 p k) + tx (ix2 p k)) * W (ix2 k q)) + b (ix1 q)

/-- The linear part reads row p of its two matrices and nothing else of them: matrices of any two heights that agree
    on a row give that row the same entries. -/
theorem linAt_congr {N N' K M : Nat} (x tx : FVec Ideal ⟨2, ![N, K]⟩ .f32) (x' tx' : FVec Ideal ⟨2, ![N', K]⟩ .f32)
    (W : FVec Ideal ⟨2, ![K, M]⟩ .f32) (b : FVec Ideal ⟨1, ![M]⟩ .f32) (p : Fin N) (p' : Fin N') (q : Fin M)
    (hx : ∀ k : Fin K, x (ix2 p k) = x' (ix2 p' k)) (htx : ∀ k : Fin K, tx (ix2 p k) = tx' (ix2 p' k)) :
    linAt x tx W b p q = linAt x' tx' W b p' q := by
  unfold linAt
  refine congrArg (· + b (ix1 q)) (Finset.sum_congr rfl fun k _ => ?_)
  rw [hx k, htx k]

/-- Entry (p, q) of the first layer: the linear part, cut off below at zero. -/
def hiddenAt {N K M : Nat} (x tx : FVec Ideal ⟨2, ![N, K]⟩ .f32) (W : FVec Ideal ⟨2, ![K, M]⟩ .f32)
    (b : FVec Ideal ⟨1, ![M]⟩ .f32) (p : Fin N) (q : Fin M) : EReal :=
  max (linAt x tx W b p q) (Ideal.ofBits .f32 0x00000000#32)

/-- A row's maximum, folded from the least float. -/
def rowMax {M : Nat} (z : Fin M → EReal) : EReal :=
  (Finset.univ : Finset (Fin M)).fold max (Ideal.ofBits .f32 0xFF800000#32) z

/-- Entry q of a row's log-softmax, shifted by the row's maximum. -/
def lsmAt {M : Nat} (z : Fin M → EReal) (q : Fin M) : EReal :=
  (z q - rowMax z) - Ideal.log (∑ j : Fin M, Ideal.exp (z j - rowMax z))

/-- Entry (p, q) of the second layer: the log-softmax of row p of the linear part. -/
def outAt {N K M : Nat} (h th : FVec Ideal ⟨2, ![N, K]⟩ .f32) (W : FVec Ideal ⟨2, ![K, M]⟩ .f32)
    (b : FVec Ideal ⟨1, ![M]⟩ .f32) (p : Fin N) (q : Fin M) : EReal :=
  lsmAt (fun j => linAt h th W b p j) q

theorem hiddenAt_congr {N N' K M : Nat} (x tx : FVec Ideal ⟨2, ![N, K]⟩ .f32) (x' tx' : FVec Ideal ⟨2, ![N', K]⟩ .f32)
    (W : FVec Ideal ⟨2, ![K, M]⟩ .f32) (b : FVec Ideal ⟨1, ![M]⟩ .f32) (p : Fin N) (p' : Fin N') (q : Fin M)
    (hx : ∀ k : Fin K, x (ix2 p k) = x' (ix2 p' k)) (htx : ∀ k : Fin K, tx (ix2 p k) = tx' (ix2 p' k)) :
    hiddenAt x tx W b p q = hiddenAt x' tx' W b p' q := by
  unfold hiddenAt
  rw [linAt_congr x tx x' tx' W b p p' q hx htx]

theorem outAt_congr {N N' K M : Nat} (h th : FVec Ideal ⟨2, ![N, K]⟩ .f32) (h' th' : FVec Ideal ⟨2, ![N', K]⟩ .f32)
    (W : FVec Ideal ⟨2, ![K, M]⟩ .f32) (b : FVec Ideal ⟨1, ![M]⟩ .f32) (p : Fin N) (p' : Fin N') (q : Fin M)
    (hh : ∀ k : Fin K, h (ix2 p k) = h' (ix2 p' k)) (hth : ∀ k : Fin K, th (ix2 p k) = th' (ix2 p' k)) :
    outAt h th W b p q = outAt h' th' W b p' q := by
  unfold outAt
  rw [show (fun j => linAt h th W b p j) = fun j => linAt h' th' W b p' j from
    funext fun j => linAt_congr h th h' th' W b p p' j hh hth]

/-- The first layer as a whole matrix. -/
def hiddenArr {N K M : Nat} (x tx : FVec Ideal ⟨2, ![N, K]⟩ .f32) (W : FVec Ideal ⟨2, ![K, M]⟩ .f32)
    (b : FVec Ideal ⟨1, ![M]⟩ .f32) : FVec Ideal ⟨2, ![N, M]⟩ .f32 :=
  fun i => hiddenAt x tx W b ⟨(i 0).val, idx2_lt0 i⟩ ⟨(i 1).val, idx2_lt1 i⟩

/-- The second layer as a whole matrix. -/
def outArr {N K M : Nat} (h th : FVec Ideal ⟨2, ![N, K]⟩ .f32) (W : FVec Ideal ⟨2, ![K, M]⟩ .f32)
    (b : FVec Ideal ⟨1, ![M]⟩ .f32) : FVec Ideal ⟨2, ![N, M]⟩ .f32 :=
  fun i => outAt h th W b ⟨(i 0).val, idx2_lt0 i⟩ ⟨(i 1).val, idx2_lt1 i⟩

theorem hiddenArr_ix2 {N K M : Nat} (x tx : FVec Ideal ⟨2, ![N, K]⟩ .f32) (W : FVec Ideal ⟨2, ![K, M]⟩ .f32)
    (b : FVec Ideal ⟨1, ![M]⟩ .f32) (p : Fin N) (q : Fin M) : hiddenArr x tx W b (ix2 p q) = hiddenAt x tx W b p q := rfl

theorem outArr_ix2 {N K M : Nat} (h th : FVec Ideal ⟨2, ![N, K]⟩ .f32) (W : FVec Ideal ⟨2, ![K, M]⟩ .f32)
    (b : FVec Ideal ⟨1, ![M]⟩ .f32) (p : Fin N) (q : Fin M) : outArr h th W b (ix2 p q) = outAt h th W b p q := rfl

/-- The maximum of the least float and a row's maximum is the row's maximum: the fold starts from that float. -/
theorem max_least_rowMax {M : Nat} (z : Fin M → EReal) : max (Ideal.ofBits .f32 0xFF800000#32) (rowMax z) = rowMax z :=
  max_eq_right ((Finset.le_fold_max _).mpr (Or.inl le_rfl))

end Cert.Gcn

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.LibColumn.lean ====
/-
  A vector as a one-column matrix, and a one-column matrix laid along every column.

  A reduction along the last axis that keeps its dimension leaves an [a] vector cast to [a, 1] and then broadcast to
  [a, b]: entry (p, c) of the result is entry p of the vector. The two steps, read at an index.
-/
import Idealize.ShloMosaic.Lib.ValueIdx
import Idealize.ShloMosaic.Lib.Pipeline.Value

noncomputable section

namespace Cert.Column

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KerBody.lean ====
/-
  The two kernel bodies, read at an entry of the block they store.

  Each body adds its two input blocks, multiplies the sum by the whole weight matrix into a zero accumulator and adds
  the bias row: at the extended reals, where the change of float format is the identity and the product into zero is
  the plain sum over k, entry (r, q) of that accumulator is the layer's linear part of the two blocks at (r, q). The
  first body then takes the maximum with zero. The second takes each row's maximum (a fold of max from the least
  float over the row's forty entries), subtracts it, and subtracts the logarithm of the row's sum of exponentials:
  the row's log-softmax.
-/
import proofs.«149022_j57458072485949_1_alg».proof.Proof.Gen.KernelIdeal.Skeleton
import proofs.«149022_j57458072485949_1_alg».proof.Proof.Spec
import proofs.«149022_j57458072485949_1_alg».proof.Proof.LibMatmul
import proofs.«149022_j57458072485949_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Gcn Cert.Column

/-! ## The dimension numbers are the plain matrix product's -/

theorem dot0_plain : dot_S5000x100_S100x128_S5000x128_1_0_0_1_n_n = DotDims.plain 5000 100 128 := rfl
theorem dot1_plain : dot_S5000x128_S128x40_S5000x40_1_0_0_1_n_n = DotDims.plain 5000 128 40 := rfl

/-! ## The first body -/

/-- The first body's accumulator: the product of the summed blocks with the weights, plus the bias row. -/
def acc0 (x0 x1 : Vec Ideal S5000x100 .f32) (w : Vec Ideal S100x128 .f32) (b : Vec Ideal S128 .f32) : FVec Ideal S5000x128 .f32 :=
  addf (matmul dot_S5000x100_S100x128_S5000x128_1_0_0_1_n_n none
      (truncf .bf16 (addf x0 (shapeCast S5000x100 x1 shapeCasts_S5000x100_S5000x100)) bitsLt_bf16_f32)
      (truncf .bf16 w bitsLt_bf16_f32) (constant S5000x128 .f32 0x00000000#32))
    (broadcastTo S5000x128 (shapeCast S1x128 b shapeCasts_S128_S1x128) broadcasts_S1x128_S5000x128)

/-- Entry (r, q) of the accumulator is the layer's linear part of the two blocks. -/
theorem acc0_at (x0 x1 : Vec Ideal S5000x100 .f32) (w : Vec Ideal S100x128 .f32) (b : Vec Ideal S128 .f32)
    (r : Fin 5000) (q : Fin 128) : acc0 x0 x1 w b (ix2 r q) = linAt x0 x1 w b r q := by
  unfold acc0 linAt
  rw [addf_apply, broadcastTo_1b_ab_apply, shapeCast_a_1a_apply]
  simp only [matmul]
  rw [dot0_plain, Cert.Matmul.matmul_plain_apply]
  simp only [truncf_apply, addf_apply, shapeCast_self]

/-- The first body's stored value at (r, q): the linear part cut off below at zero. -/
theorem pay0_at (x0 x1 : Vec Ideal S5000x100 .f32) (w : Vec Ideal S100x128 .f32) (b : Vec Ideal S128 .f32)
    (r : Fin 5000) (q : Fin 128) : k0_pay1 (F := Ideal) x0 x1 w b (ix2 r q) = hiddenAt x0 x1 w b r q := by
  have e : k0_pay1 (F := Ideal) x0 x1 w b = maximumf (acc0 x0 x1 w b) (broadcast S5000x128 (Scalar.ofBits .f32 0x00000000#32)) := rfl
  rw [e, maximumf_apply, broadcast_apply, acc0_at]
  rfl

/-! ## The second body -/

/-- The second body's accumulator. -/
def acc1 (x0 x1 : Vec Ideal S5000x128 .f32) (w : Vec Ideal S128x40 .f32) (b : Vec Ideal S40 .f32) : FVec Ideal S5000x40 .f32 :=
  addf (matmul dot_S5000x128_S128x40_S5000x40_1_0_0_1_n_n none
      (truncf .bf16 (addf (shapeCast S5000x128 x0 shapeCasts_S5000x128_S5000x128) (shapeCast S5000x128 x1 shapeCasts_S5000x128_S5000x128)) bitsLt_bf16_f32)
      (truncf .bf16 w bitsLt_bf16_f32) (constant S5000x40 .f32 0x00000000#32))
    (broadcastTo S5000x40 (shapeCast S1x40 b shapeCasts_S40_S1x40) broadcasts_S1x40_S5000x40)

theorem acc1_at (x0 x1 : Vec Ideal S5000x128 .f32) (w : Vec Ideal S128x40 .f32) (b : Vec Ideal S40 .f32)
    (r : Fin 5000) (q : Fin 40) : acc1 x0 x1 w b (ix2 r q) = linAt x0 x1 w b r q := by
  unfold acc1 linAt
  rw [addf_apply, broadcastTo_1b_ab_apply, shapeCast_a_1a_apply]
  simp only [matmul]
  rw [dot1_plain, Cert.Matmul.matmul_plain_apply]
  simp only [truncf_apply, addf_apply, shapeCast_self]

/-- What the second body does to its accumulator: each row shifted by its maximum, then by the logarithm of the sum of
    the shifted row's exponentials. -/
def tail1 (z : FVec Ideal S5000x40 .f32) : FVec Ideal S5000x40 .f32 :=
  subf (subf z (broadcastTo S5000x40 (shapeCast S5000x1
        (multiReduction .maximumf [1] S5000 z 0xFF800000#32 reduces_S5000x40_S5000 (.inl rfl) rfl) shapeCasts_S5000_S5000x1) broadcasts_S5000x1_S5000x40))
    (broadcastTo S5000x40 (log (shapeCast S5000x1
        (multiReduction .add [1] S5000
          (exp (subf z (broadcastTo S5000x40 (shapeCast S5000x1
            (multiReduction .maximumf [1] S5000 z 0xFF800000#32 reduces_S5000x40_S5000 (.inl rfl) rfl) shapeCasts_S5000_S5000x1) broadcasts_S5000x1_S5000x40)))
          0x00000000#32 reduces_S5000x40_S5000 (.inl rfl) rfl) shapeCasts_S5000_S5000x1)) broadcasts_S5000x1_S5000x40)

/-- The index a reduction over the second axis reads at row r and position k is (r, k). -/
theorem lift_row (h : S5000x40.Reduces [1] S5000) (r : Fin 5000) (k : Fin 40) : h.lift (ix1 r) k = ix2 r k :=
  funext fun a => Fin.ext (by
    match a with
    | ⟨0, _⟩ => rfl
    | ⟨1, _⟩ => rfl)

/-- A row's maximum as the body takes it. -/
theorem rowmax_at (z : FVec Ideal S5000x40 .f32) (r : Fin 5000) :
    multiReduction .maximumf [1] S5000 z 0xFF800000#32 reduces_S5000x40_S5000 (.inl rfl) rfl (ix1 r) = rowMax fun j => z (ix2 r j) := by
  refine (Ideal.multiReduction_maximumf_single z 0xFF800000#32 reduces_S5000x40_S5000 (.inl rfl) rfl (ix1 r)).trans ?_
  unfold rowMax
  have e : (fun k : Fin 40 => z (reduces_S5000x40_S5000.lift (ix1 r) k)) = fun j => z (ix2 r j) :=
    funext fun k => congrArg z (lift_row _ r k)
  exact congrArg (fun f => (Finset.univ : Finset (Fin 40)).fold max (Ideal.ofBits .f32 0xFF800000#32) f) e

/-- A row's sum as the body takes it. -/
theorem rowsum_at (y : FVec Ideal S5000x40 .f32) (r : Fin 5000) :
    multiReduction .add [1] S5000 y 0x00000000#32 reduces_S5000x40_S5000 (.inl rfl) rfl (ix1 r) = ∑ j : Fin 40, y (ix2 r j) := by
  refine (Ideal.multiReduction_add_single y 0x00000000#32 reduces_S5000x40_S5000 (.inl rfl) rfl (ix1 r)).trans ?_
  show (∑ k : Fin 40, y (reduces_S5000x40_S5000.lift (ix1 r) k)) = _
  simp only [lift_row]

theorem tail1_at (z : FVec Ideal S5000x40 .f32) (r : Fin 5000) (q : Fin 40) :
    tail1 z (ix2 r q) = lsmAt (fun j => z (ix2 r j)) q := by
  unfold tail1 lsmAt
  rw [subf_apply, subf_apply, broadcastTo_a1_ab_apply, broadcastTo_a1_ab_apply, shapeCast_a_a1_apply, rowmax_at]
  show (z (ix2 r q) - _) - Ideal.log (shapeCast S5000x1 _ shapeCasts_S5000_S5000x1 (ix2 r (0 : Fin 1))) = _
  rw [shapeCast_a_a1_apply, rowsum_at]
  refine congrArg (fun s => (z (ix2 r q) - rowMax fun j => z (ix2 r j)) - Ideal.log s) ?_
  refine Finset.sum_congr rfl fun k _ => ?_
  show Ideal.exp (subf z _ (ix2 r k)) = _
  rw [subf_apply, broadcastTo_a1_ab_apply, shapeCast_a_a1_apply, rowmax_at]

/-- The second body's stored value at (r, q): the log-softmax of row r of the linear part. -/
theorem pay1_at (x0 x1 : Vec Ideal S5000x128 .f32) (w : Vec Ideal S128x40 .f32) (b : Vec Ideal S40 .f32)
    (r : Fin 5000) (q : Fin 40) : k1_pay1 (F := Ideal) x0 x1 w b (ix2 r q) = outAt x0 x1 w b r q := by
  have e : k1_pay1 (F := Ideal) x0 x1 w b = tail1 (acc1 x0 x1 w b) := rfl
  rw [e, tail1_at]
  unfold outAt
  simp only [acc1_at]

end Cert.KernelIdeal.Body

end
-- ==== Proof.KerRegion0.lean ====
/-
  The first pallas_call's result array, as one function of the arrays the call finds.

  The grid has ten points; point t stages rows 5000 t .. 5000 t + 4999 of the feature matrix and of its neighbourhood
  aggregate, the whole weight matrix and the whole bias, and writes back rows 5000 t .. 5000 t + 4999 of the result.
  A row of the first layer depends on the same row of the two matrices only, so what point t writes back is block t
  of the first layer of the WHOLE arrays; the ten blocks tile the 50000 rows (row p is in block p / 5000), so the
  result array ends holding the first layer of the arrays as the call finds them.
-/
import proofs.«149022_j57458072485949_1_alg».proof.Proof.Gen.KernelIdeal.Frame
import proofs.«149022_j57458072485949_1_alg».proof.Proof.KerBody
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The arrays the call finds and the blocks a point stages, at their literal types -/

abbrev xArr (c : Dev nD) : FVec Ideal S50000x100 .f32 := V c main_arg0
abbrev txArr (c : Dev nD) : FVec Ideal S50000x100 .f32 := V c main_v12
abbrev wArr (c : Dev nD) : FVec Ideal S100x128 .f32 := V c main_arg4
abbrev bArr (c : Dev nD) : FVec Ideal S128 .f32 := V c main_arg5
abbrev xBlk (c : Dev nD) (t : Fin cfg0.N) : FVec Ideal S5000x100 .f32 := iblk0 V c 0 t
abbrev txBlk (c : Dev nD) (t : Fin cfg0.N) : FVec Ideal S5000x100 .f32 := iblk0 V c 1 t
abbrev wBlk (c : Dev nD) (t : Fin cfg0.N) : FVec Ideal S100x128 .f32 := iblk0 V c 2 t
abbrev bBlk (c : Dev nD) (t : Fin cfg0.N) : FVec Ideal S128 .f32 := iblk0 V c 3 t

/-- The printed index maps over the grid: the row windows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row r of point t's blocks is row 5000 t + r of the arrays. -/
theorem row_lt (t : Fin cfg0.N) (r : Fin 5000) : t.val * 5000 + r.val < 50000 := by
  have ht : t.val < 10 := t.isLt
  have hr := r.isLt
  omega

theorem xBlk_at (c : Dev nD) (t : Fin cfg0.N) (r : Fin 5000) (k : Fin 100) :
    xBlk V c t (ix2 r k) = xArr V c (ix2 ⟨t.val * 5000 + r.val, row_lt t r⟩ k) := by
  obtain ⟨e0, e1, -⟩ := idx_facts t
  show V c main_arg0 (((cfg0.win 0).blk t).view.emb (ix2 r k)) = V c main_arg0 _
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 100 + 1 * k.val = k.val; omega

theorem txBlk_at (c : Dev nD) (t : Fin cfg0.N) (r : Fin 5000) (k : Fin 100) :
    txBlk V c t (ix2 r k) = txArr V c (ix2 ⟨t.val * 5000 + r.val, row_lt t r⟩ k) := by
  obtain ⟨-, -, e0, e1, -⟩ := idx_facts t
  show V c main_v12 (((cfg0.win 1).blk t).view.emb (ix2 r k)) = V c main_v12 _
  refine congrArg (V c main_v12) (funext fun a => Fin.ext ?_)
  match a with
  | ⟨0, _⟩ => show win0_1.index t (0 : Fin 2) * 5000 + 1 * r.val = t.val * 5000 + r.val; omega
  | ⟨1, _⟩ => show win0_1.index t (1 : Fin 2) * 100 + 1 * k.val = k.val; omega

/-- The weights' block is the whole matrix, the bias's the whole row, at every point. -/
theorem wBlk_eq (c : Dev nD) (t : Fin cfg0.N) : wBlk V c t = wArr V c := by
  obtain ⟨-, -, -, -, e0, e1, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 2) * 100 + 1 * (y 0).val = (y 0).val; omega
  | ⟨1, _⟩ => show win0_2.index t (1 : Fin 2) * 128 + 1 * (y 1).val = (y 1).val; omega

theorem bBlk_eq (c : Dev nD) (t : Fin cfg0.N) : bBlk V c t = bArr V c := by
  obtain ⟨-, -, -, -, -, -, e0, -⟩ := idx_facts t
  funext y
  show V c main_arg5 (((cfg0.win 3).blk t).view.emb y) = V c main_arg5 y
  refine congrArg (V c main_arg5) (funext fun a => Fin.ext ?_)
  match a with
  | ⟨0, _⟩ => show win0_3.index t (0 : Fin 1) * 128 + 1 * (y 0).val = (y 0).val; omega

/-- Entry (r, q) of the result's block t is entry (5000 t + r, q) of the result array. -/
theorem emb_out (t : Fin cfg0.N) (r : Fin 5000) (q : Fin 128) :
    ((cfg0.win 4).blk t).view.emb (ix2 r q) = (ix2 ⟨t.val * 5000 + r.val, row_lt t r⟩ q : S50000x128.Idx) := by
  obtain ⟨-, -, -, -, -, -, -, e0, e1⟩ := idx_facts t
  refine funext fun a => Fin.ext ?_
  match a with
  | ⟨0, _⟩ => show win0_4.index t (0 : Fin 2) * 5000 + 1 * r.val = t.val * 5000 + r.val; omega
  | ⟨1, _⟩ => show win0_4.index t (1 : Fin 2) * 128 + 1 * q.val = q.val; omega

/-- WHAT POINT t WRITES BACK is block t of the first layer of the arrays the call finds. -/
theorem flushed_eq (c : Dev nD) (t : Fin cfg0.N) :
    (dat0 V c).flushed 4 t = ((cfg0.win 4).blk t).view.read (Elt Ideal) (hiddenArr (xArr V c) (txArr V c) (wArr V c) (bArr V c)) := by
  show (cfg0.win 4).cut (grid0.coords t) ((dat0 V c).after 4 t) = _
  rw [after0_4]
  unfold out0_4
  rw [View.canon_unit_zero hz2]
  simp only [View.ld_unit_zero (S := S5000x100) hz2, View.ld_unit_zero (S := S100x128) hz2, View.ld_unit_zero (S := S128) hz1]
  funext j
  obtain ⟨r, q, rfl⟩ : ∃ (r : Fin 5000) (q : Fin 128), j = ix2 r q := ⟨j 0, j 1, eq_ix2 j⟩
  show k0_pay1 (F := Ideal) (xBlk V c t) (txBlk V c t) (wBlk V c t) (bBlk V c t) (ix2 r q)
    = hiddenArr (xArr V c) (txArr V c) (wArr V c) (bArr V c) (((cfg0.win 4).blk t).view.emb (ix2 r q))
  rw [emb_out t r q, hiddenArr_ix2, pay0_at, wBlk_eq, bBlk_eq]
  exact hiddenAt_congr _ _ _ _ _ _ r ⟨t.val * 5000 + r.val, row_lt t r⟩ q (xBlk_at V c t r) (txBlk_at V c t r)

/-- An index of the result array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v13).slice (win0_4.rect t)).set ↔ _
  rw [View.set_slice_whole, Rect.mem_set_unit]
  exact Iff.rfl

/-- Every entry of the result array is in some point's block: row p is in block p / 5000. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 5000, by show (i 0).val / 5000 < 10; omega⟩, flush0_4 _, ?_⟩
  obtain ⟨-, -, -, -, -, -, -, e0, e1⟩ := idx_facts ⟨(i 0).val / 5000, by show (i 0).val / 5000 < 10; omega⟩
  rw [mem_blk]
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- THE RESULT ARRAY after the call: the first layer of the arrays the call finds. -/
theorem final (c : Dev nD) :
    (dat0 V c).arrAt 4 cfg0.N = hiddenArr (xArr V c) (txArr V c) (wArr V c) (bArr V c) :=
  (dat0 V c).arrAt_eq_of_cover 4 (hiddenArr (xArr V c) (txArr V c) (wArr V c) (bArr V c)) (fun t _ => flushed_eq V c t) cover

end Cert.KernelIdeal.Region0

end
-- ==== Proof.KerRegion1.lean ====
/-
  The second pallas_call's result array, as one function of the arrays the call finds.

  As in the first call the grid has ten points and point t stages rows 5000 t .. 5000 t + 4999 of its two row
  operands (the hidden layer and its neighbourhood aggregate), the whole second weight matrix and the whole bias. A row
  of the second layer (the linear part of the row, then the row's log-softmax) depends on the same row of the two
  operands only, so point t writes back block t of the second layer of the WHOLE arrays, and the ten blocks tile the
  50000 rows.
-/
import proofs.«149022_j57458072485949_1_alg».proof.Proof.Gen.KernelIdeal.Frame
import proofs.«149022_j57458072485949_1_alg».proof.Proof.KerBody
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The arrays the call finds and the blocks a point stages, at their literal types -/

abbrev hArr (c : Dev nD) : FVec Ideal S50000x128 .f32 := V c main_v13
abbrev thArr (c : Dev nD) : FVec Ideal S50000x128 .f32 := V c main_v26
abbrev wArr (c : Dev nD) : FVec Ideal S128x40 .f32 := V c main_arg6
abbrev bArr (c : Dev nD) : FVec Ideal S40 .f32 := V c main_arg7
abbrev hBlk (c : Dev nD) (t : Fin cfg1.N) : FVec Ideal S5000x128 .f32 := iblk1 V c 0 t
abbrev thBlk (c : Dev nD) (t : Fin cfg1.N) : FVec Ideal S5000x128 .f32 := iblk1 V c 1 t
abbrev wBlk (c : Dev nD) (t : Fin cfg1.N) : FVec Ideal S128x40 .f32 := iblk1 V c 2 t
abbrev bBlk (c : Dev nD) (t : Fin cfg1.N) : FVec Ideal S40 .f32 := iblk1 V c 3 t

/-- The printed index maps over the grid: the row windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row r of point t's blocks is row 5000 t + r of the arrays. -/
theorem row_lt (t : Fin cfg1.N) (r : Fin 5000) : t.val * 5000 + r.val < 50000 := by
  have ht : t.val < 10 := t.isLt
  have hr := r.isLt
  omega

theorem hBlk_at (c : Dev nD) (t : Fin cfg1.N) (r : Fin 5000) (k : Fin 128) :
    hBlk V c t (ix2 r k) = hArr V c (ix2 ⟨t.val * 5000 + r.val, row_lt t r⟩ k) := by
  obtain ⟨e0, e1, -⟩ := idx_facts t
  show V c main_v13 (((cfg1.win 0).blk t).view.emb (ix2 r k)) = V c main_v13 _
  refine congrArg (V c main_v13) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

theorem thBlk_at (c : Dev nD) (t : Fin cfg1.N) (r : Fin 5000) (k : Fin 128) :
    thBlk V c t (ix2 r k) = thArr V c (ix2 ⟨t.val * 5000 + r.val, row_lt t r⟩ k) := by
  obtain ⟨-, -, e0, e1, -⟩ := idx_facts t
  show V c main_v26 (((cfg1.win 1).blk t).view.emb (ix2 r k)) = V c main_v26 _
  refine congrArg (V c main_v26) (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

/-- The weights' block is the whole matrix, the bias's the whole row, at every point. -/
theorem wBlk_eq (c : Dev nD) (t : Fin cfg1.N) : wBlk V c t = wArr V c := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 40 + 1 * (y 1).val = (y 1).val; omega

theorem bBlk_eq (c : Dev nD) (t : Fin cfg1.N) : bBlk V c t = bArr V c := by
  obtain ⟨-, -, -, -, -, -, e0, -⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 1) * 40 + 1 * (y 0).val = (y 0).val; omega

/-- Entry (r, q) of the result's block t is entry (5000 t + r, q) of the result array. -/
theorem emb_out (t : Fin cfg1.N) (r : Fin 5000) (q : Fin 40) :
    ((cfg1.win 4).blk t).view.emb (ix2 r q) = (ix2 ⟨t.val * 5000 + r.val, row_lt t r⟩ q : S50000x40.Idx) := by
  obtain ⟨-, -, -, -, -, -, -, e0, e1⟩ := idx_facts t
  refine funext fun a => Fin.ext ?_
  match a with
  | ⟨0, _⟩ => show win1_4.index t (0 : Fin 2) * 5000 + 1 * r.val = t.val * 5000 + r.val; omega
  | ⟨1, _⟩ => show win1_4.index t (1 : Fin 2) * 40 + 1 * q.val = q.val; omega

/-- WHAT POINT t WRITES BACK is block t of the second layer of the arrays the call finds. -/
theorem flushed_eq (c : Dev nD) (t : Fin cfg1.N) :
    (dat1 V c).flushed 4 t = ((cfg1.win 4).blk t).view.read (Elt Ideal) (outArr (hArr V c) (thArr V c) (wArr V c) (bArr V c)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x40) hz2, View.ld_unit_zero (S := S40) hz1]
  funext j
  obtain ⟨r, q, rfl⟩ : ∃ (r : Fin 5000) (q : Fin 40), j = ix2 r q := ⟨j 0, j 1, eq_ix2 j⟩
  show k1_pay1 (F := Ideal) (hBlk V c t) (thBlk V c t) (wBlk V c t) (bBlk V c t) (ix2 r q)
    = outArr (hArr V c) (thArr V c) (wArr V c) (bArr V c) (((cfg1.win 4).blk t).view.emb (ix2 r q))
  rw [emb_out t r q, outArr_ix2, pay1_at, wBlk_eq, bBlk_eq]
  exact outAt_congr _ _ _ _ _ _ r ⟨t.val * 5000 + r.val, row_lt t r⟩ q (hBlk_at V c t r) (thBlk_at V c t r)

/-- An index of the result array is in point t's block iff each coordinate is in the block's range on its axis. -/
theorem mem_blk (t : Fin cfg1.N) (i : S50000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v27).slice (win1_4.rect t)).set ↔ _
  rw [View.set_slice_whole, Rect.mem_set_unit]
  exact Iff.rfl

/-- Every entry of the result array is in some point's block: row p is in block p / 5000. -/
theorem cover (i : S50000x40.Idx) : ∃ t : Fin cfg1.N, (cfg1.win 4).flush t = true ∧ i ∈ ((cfg1.win 4).blk t).view.set := by
  have hi0 : (i 0).val < 50000 := (i 0).isLt
  have hi1 : (i 1).val < 40 := (i 1).isLt
  refine ⟨⟨(i 0).val / 5000, by show (i 0).val / 5000 < 10; omega⟩, flush1_4 _, ?_⟩
  obtain ⟨-, -, -, -, -, -, -, e0, e1⟩ := idx_facts ⟨(i 0).val / 5000, by show (i 0).val / 5000 < 10; omega⟩
  rw [mem_blk]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 40 ≤ (i 1).val ∧ (i 1).val < win1_4.index _ (1 : Fin 2) * 40 + 40
    rw [e1]; omega

/-- THE RESULT ARRAY after the call: the second layer of the arrays the call finds. -/
theorem final (c : Dev nD) :
    (dat1 V c).arrAt 4 cfg1.N = outArr (hArr V c) (thArr V c) (wArr V c) (bArr V c) :=
  (dat1 V c).arrAt_eq_of_cover 4 (outArr (hArr V c) (thArr V c) (wArr V c) (bArr V c)) (fun t _ => flushed_eq V c t) cover

end Cert.KernelIdeal.Region1

end
-- ==== Proof.KerHost.lean ====
/-
  The kernel program's result buffer as one function of the launch memory.

  @main is a stretch of host operations (the neighbourhood aggregate of the features), the first pallas_call, a second
  stretch (the aggregate of the first call's result) and the second pallas_call. From ANY buffer contents a stretch leaves
  its aggregate at one function of what it found (`aggA`, `aggB`) and writes nothing else that a call reads; a call
  leaves its result array at its layer of the arrays it finds (the two region modules) and every other buffer as it was.
  Read back from the last boundary to the launch memory, the result buffer holds the second layer of the hidden layer
  and its aggregate, the hidden layer being the first layer of the features and their aggregate.
-/
import proofs.«149022_j57458072485949_1_alg».proof.Proof.Gen.KernelIdeal.Frame
import proofs.«149022_j57458072485949_1_alg».proof.Proof.KerRegion0
import proofs.«149022_j57458072485949_1_alg».proof.Proof.KerRegion1
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Gcn

/-! ## The two aggregates, as the host operations spell them -/

section Agg
variable {F : FTy → Type} [FloatOps F]

/-- The neighbourhood aggregate of a 100-wide feature matrix: each edge's source row (a negative source index first
    wrapped by the number of nodes), scaled by the edge's value, summed into the edge's target row. -/
def aggA (x0 : (⟨S50000x100, .f32⟩ : BufTy).Contents (Elt F)) (x1 x2 : (⟨S800000, .i32⟩ : BufTy).Contents (Elt F)) (x3 : (⟨S800000, .f32⟩ : BufTy).Contents (Elt F)) : (⟨S50000x100, .f32⟩ : BufTy).Contents (Elt F) :=
  Host.scatterAdd scatter_S50000x100_S800000x1_S800000x100_1_0_0_1
    (broadcastInDim S50000x100 ![] bcast_S_S50000x100 (constant (F := F) S_ .f32 0x00000000#32))
    (broadcastInDim S800000x1 ![0] bcast_S800000_S800000x1_0 x1)
    (mulf (Host.gather gather_S50000x100_S800000x1_S800000x100_1_0_n_n_0_1_1100 x0
        (broadcastInDim S800000x1 ![0] bcast_S800000_S800000x1_0
          (select (cmpi .slt x2 (broadcastInDim S800000 ![] bcast_S_S800000 (constantI S_ 32 0#32)))
            (addi x2 (broadcastInDim S800000 ![] bcast_S_S800000 (constantI S_ 32 50000#32))) x2)))
      (broadcastInDim S800000x100 ![0, 1] bcast_S800000x1_S800000x100_0_1 (broadcastInDim S800000x1 ![0] bcast_S800000_S800000x1_0 x3)))

/-- The same aggregate of a 128-wide matrix. -/
def aggB (h : (⟨S50000x128, .f32⟩ : BufTy).Contents (Elt F)) (x1 x2 : (⟨S800000, .i32⟩ : BufTy).Contents (Elt F)) (x3 : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 x1)
    (mulf (Host.gather gather_S50000x128_S800000x1_S800000x128_1_0_n_n_0_1_1128 h
        (broadcastInDim S800000x1 ![0] bcast_S800000_S800000x1_0
          (select (cmpi .slt x2 (broadcastInDim S800000 ![] bcast_S_S800000 (constantI S_ 32 0#32)))
            (addi x2 (broadcastInDim S800000 ![] bcast_S_S800000 (constantI S_ 32 50000#32))) x2)))
      (broadcastInDim S800000x128 ![0, 1] bcast_S800000x1_S800000x128_0_1 (broadcastInDim S800000x1 ![0] bcast_S800000_S800000x1_0 x3)))

/-! ## Each stretch from any contents -/

variable (W : Valuation τ sig (Elt F))

/-- The first stretch leaves the features' aggregate in `main_v12`. -/
theorem host0_agg : after (hostOps0 (F := F)) W (Proc.devRef .tc main_v12)
    = aggA (W (Proc.devRef .tc main_arg0)) (W (Proc.devRef .tc main_arg1)) (W (Proc.devRef .tc main_arg2)) (W (Proc.devRef .tc main_arg3)) := by
  after_results_simp <;> rfl

/-- The first stretch writes no argument. -/
theorem host0_args : after (hostOps0 (F := F)) W (Proc.devRef .tc main_arg0) = W (Proc.devRef .tc main_arg0)
    ∧ after (hostOps0 (F := F)) W (Proc.devRef .tc main_arg1) = W (Proc.devRef .tc main_arg1)
    ∧ after (hostOps0 (F := F)) W (Proc.devRef .tc main_arg2) = W (Proc.devRef .tc main_arg2)
    ∧ after (hostOps0 (F := F)) W (Proc.devRef .tc main_arg3) = W (Proc.devRef .tc main_arg3)
    ∧ after (hostOps0 (F := F)) W (Proc.devRef .tc main_arg4) = W (Proc.devRef .tc main_arg4)
    ∧ after (hostOps0 (F := F)) W (Proc.devRef .tc main_arg5) = W (Proc.devRef .tc main_arg5)
    ∧ after (hostOps0 (F := F)) W (Proc.devRef .tc main_arg6) = W (Proc.devRef .tc main_arg6)
    ∧ after (hostOps0 (F := F)) W (Proc.devRef .tc main_arg7) = W (Proc.devRef .tc main_arg7) :=
  ⟨by after_results_simp, by after_results_simp, by after_results_simp, by after_results_simp,
   by after_results_simp, by after_results_simp, by after_results_simp, by after_results_simp⟩

/-- The second stretch leaves the aggregate of the first call's result in `main_v26`. -/
theorem host1_agg : after (hostOps1 (F := F)) W (Proc.devRef .tc main_v26)
    = aggB (W (Proc.devRef .tc main_v13)) (W (Proc.devRef .tc main_arg1)) (W (Proc.devRef .tc main_arg2)) (W (Proc.devRef .tc main_arg3)) := by
  after_results_simp <;> rfl

/-- The second stretch writes neither the first call's result nor the second call's weights and bias. -/
theorem host1_kept : after (hostOps1 (F := F)) W (Proc.devRef .tc main_v13) = W (Proc.devRef .tc main_v13)
    ∧ after (hostOps1 (F := F)) W (Proc.devRef .tc main_arg6) = W (Proc.devRef .tc main_arg6)
    ∧ after (hostOps1 (F := F)) W (Proc.devRef .tc main_arg7) = W (Proc.devRef .tc main_arg7) :=
  ⟨by after_results_simp, by after_results_simp, by after_results_simp⟩

end Agg

/-! ## The boundaries' contents, read back to the launch memory -/

variable (m : (ℓ : Loc nD τ sig) → Buf (Elt Ideal) ℓ) (ρ : Dev nD → PrngReg)

/-- The hidden layer of the launch memory: the first layer of the features and their aggregate. -/
abbrev hiddenOf (c : Dev nD) : FVec Ideal S50000x128 .f32 :=
  hiddenArr (m ((c : Thread nD τ).loc main_arg0))
    (aggA (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5))

/-- What @main's result buffer ends holding, of the launch memory. -/
abbrev resultOf (c : Dev nD) : FVec Ideal S50000x40 .f32 :=
  outArr (hiddenOf m c)
    (aggB (F := Ideal) (hiddenOf m c) (m ((c : Thread nD τ).loc main_arg1)) (m ((c : Thread nD τ).loc main_arg2)) (m ((c : Thread nD τ).loc main_arg3)))
    (m ((c : Thread nD τ).loc main_arg6)) (m ((c : Thread nD τ).loc main_arg7))

/-- After the first stretch: the aggregate and the arguments, of the launch memory. -/
theorem W1_v12 (c : Dev nD) : W1 m ρ c (Proc.devRef .tc main_v12)
    = aggA (F := Ideal) (m ((c : Thread nD τ).loc main_arg0)) (m ((c : Thread nD τ).loc main_arg1)) (m ((c : Thread nD τ).loc main_arg2)) (m ((c : Thread nD τ).loc main_arg3)) :=
  host0_agg (W0 m ρ c)

theorem W1_arg (c : Dev nD) : W1 m ρ c (Proc.devRef .tc main_arg0) = m ((c : Thread nD τ).loc main_arg0)
    ∧ W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) :=
  host0_args (W0 m ρ c)

/-- After the first call: its result array holds the hidden layer of the launch memory. -/
theorem W2_v13 (c : Dev nD) : W2 m ρ c (Proc.devRef .tc main_v13) = hiddenOf m c := by
  obtain ⟨e0, -, -, -, e4, e5, -, -⟩ := W1_arg m ρ c
  refine (W2_arr m ρ c 4).trans ((Region0.final (V1 m ρ) c).trans ?_)
  show hiddenArr (W1 m ρ c (Proc.devRef .tc main_arg0)) (W1 m ρ c (Proc.devRef .tc main_v12)) (W1 m ρ c (Proc.devRef .tc main_arg4)) (W1 m ρ c (Proc.devRef .tc main_arg5)) = _
  rw [e0, e4, e5, W1_v12]

/-- After the first call the other arguments are as launched: the call writes none of them. -/
theorem W2_arg (c : Dev nD) : W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg6) = m ((c : Thread nD τ).loc main_arg6)
    ∧ W2 m ρ c (Proc.devRef .tc main_arg7) = m ((c : Thread nD τ).loc main_arg7) := by
  obtain ⟨-, e1, e2, e3, -, -, e6, e7⟩ := W1_arg m ρ c
  exact ⟨(W2_of_ne m ρ c main_arg1 (by decide)).trans e1, (W2_of_ne m ρ c main_arg2 (by decide)).trans e2,
    (W2_of_ne m ρ c main_arg3 (by decide)).trans e3, (W2_of_ne m ρ c main_arg6 (by decide)).trans e6,
    (W2_of_ne m ρ c main_arg7 (by decide)).trans e7⟩

/-- THE RESULT BUFFER at the last boundary: the second layer of the hidden layer and its aggregate. -/
theorem W4_result (c : Dev nD) : W4 m ρ c (Proc.devRef .tc main_v27) = resultOf m c := by
  obtain ⟨e1, e2, e3, e6, e7⟩ := W2_arg m ρ c
  obtain ⟨k13, k6, k7⟩ := host1_kept (W2 m ρ c)
  refine (W4_arr m ρ c 4).trans ((Region1.final (V3 m ρ) c).trans ?_)
  show outArr (W3 m ρ c (Proc.devRef .tc main_v13)) (W3 m ρ c (Proc.devRef .tc main_v26)) (W3 m ρ c (Proc.devRef .tc main_arg6)) (W3 m ρ c (Proc.devRef .tc main_arg7)) = _
  show outArr (after hostOps1 (W2 m ρ c) (Proc.devRef .tc main_v13)) (after hostOps1 (W2 m ρ c) (Proc.devRef .tc main_v26))
    (after hostOps1 (W2 m ρ c) (Proc.devRef .tc main_arg6)) (after hostOps1 (W2 m ρ c) (Proc.devRef .tc main_arg7)) = _
  rw [k13, k6, k7, host1_agg, W2_v13, e1, e2, e3, e6, e7]

end Cert.KernelIdeal.Host

end
-- ==== Proof.RefStages.lean ====
/-
  The reference's run, read stretch by stretch.

  The reference's sixty host operations are cut where a value is used twice: after the hidden layer (both the
  neighbourhood aggregate and the sum read it), after the second layer's linear part (the row maximum and the shift read
  it), and after the shifted rows (the exponentials and the last subtraction read them). From ANY buffer contents, each
  stretch leaves its last buffer at its stage function of what the stretch found, and no stretch writes an argument (the
  third stretch is read with its row reduction a parameter: the stretch only applies it); so
  from the launch contents the result buffer ends at the last stage of the arguments, and the arguments end as launched.
-/
import proofs.«149022_j57458072485949_1_alg».proof.Proof.RefRun
import proofs.«149022_j57458072485949_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The four stretches -/

/-- Operations 1 to 24: the first aggregate, the first layer's linear part and its maximum with zero (the hidden layer). -/
abbrev opsA : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    unary main_arg3 main_v7 (broadcastInDim S800000x1 ![0] bcast_S800000_S800000x1_0 : (⟨S800000, .f32⟩ : BufTy).Contents (Elt F) → (⟨S800000x1, .f32⟩ : BufTy).Contents (Elt F)),
    unary main_v7 main_v8 (broadcastInDim S800000x100 ![0, 1] bcast_S800000x1_S800000x100_0_1 : (⟨S800000x1, .f32⟩ : BufTy).Contents (Elt F) → (⟨S800000x100, .f32⟩ : BufTy).Contents (Elt F)),
    binary main_v6 main_v8 main_v9 (mulf : (⟨S800000x100, .f32⟩ : BufTy).Contents (Elt F) → (⟨S800000x100, .f32⟩ : BufTy).Contents (Elt F) → (⟨S800000x100, .f32⟩ : BufTy).Contents (Elt F)),
    nullary main_cst (constant S_ .f32 0x00000000#32),
    unary main_cst main_v10 (broadcastInDim S50000x100 ![] bcast_S_S50000x100 : (⟨S_, .f32⟩ : BufTy).Contents (Elt F) → (⟨S50000x100, .f32⟩ : BufTy).Contents (Elt F)),
    unary main_arg1 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    binary main_arg0 main_v12 main_v13 (addf : (⟨S50000x100, .f32⟩ : BufTy).Contents (Elt F) → (⟨S50000x100, .f32⟩ : BufTy).Contents (Elt F) → (⟨S50000x100, .f32⟩ : BufTy).Contents (Elt F)),
    binary main_v13 main_arg4 main_v14 ((fun l r => Host.dotGeneral dot_S50000x100_S100x128_S50000x128_1_0_0_1_n_n none l r) : (⟨S50000x100, .f32⟩ : BufTy).Contents (Elt F) → (⟨S100x128, .f32⟩ : BufTy).Contents (Elt F) → (⟨S50000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v17) (TRef.of (T := ⟨S50000x128, .f32⟩) main_call0_v0) (TRef.of (T := ⟨S50000x128, .f32⟩) main_v18) maximumf ]

/-- Operations 25 to 45: the hidden layer's aggregate and the second layer's linear part. -/
abbrev opsB : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_arg2 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_arg2 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg2 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg3 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x128 ![0, 1] bcast_S800000x1_S800000x128_0_1 : (⟨S800000x1, .f32⟩ : BufTy).Contents (Elt F) → (⟨S800000x128, .f32⟩ : BufTy).Contents (Elt F)),
    binary main_v25 main_v27 main_v28 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v29 (broadcastInDim S50000x128 ![] bcast_S_S50000x128 : (⟨S_, .f32⟩ : BufTy).Contents (Elt F) → (⟨S50000x128, .f32⟩ : BufTy).Contents (Elt F)),
    unary main_arg1 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v18 main_v31 main_v32 (addf : (⟨S50000x128, .f32⟩ : BufTy).Contents (Elt F) → (⟨S50000x128, .f32⟩ : BufTy).Contents (Elt F) → (⟨S50000x128, .f32⟩ : BufTy).Contents (Elt F)),
    binary main_v32 main_arg6 main_v33 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg7 main_v34 (broadcastInDim S1x40 ![1] bcast_S40_S1x40_1 : (⟨S40, .f32⟩ : BufTy).Contents (Elt F) → (⟨S1x40, .f32⟩ : BufTy).Contents (Elt F)),
    unary main_v34 main_v35 (broadcastInDim S50000x40 ![0, 1] bcast_S1x40_S50000x40_0_1 : (⟨S1x40, .f32⟩ : BufTy).Contents (Elt F) → (⟨S50000x40, .f32⟩ : BufTy).Contents (Elt F)),
    binary main_v33 main_v35 main_v36 (addf : (⟨S50000x40, .f32⟩ : BufTy).Contents (Elt F) → (⟨S50000x40, .f32⟩ : BufTy).Contents (Elt F) → (⟨S50000x40, .f32⟩ : BufTy).Contents (Elt F)) ]

/-- Operations 46 to 53: each row's maximum, and the rows shifted by it. -/
abbrev opsC : List (HloOp τ sig (Elt F)) :=
  [ TRef.nullary (TRef.of (T := ⟨S_, .f32⟩) main_call1_cst) (constant S_ .f32 0xFF800000#32),
    TRef.binary (TRef.of (T := ⟨S50000x40, .f32⟩) main_v36) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v36) (TRef.of (T := ⟨S50000x40, .f32⟩) main_call1_v4) (TRef.of (T := ⟨S50000x40, .f32⟩) main_call1_v5) subf ]

/-- Operations 54 to 60: the logarithm of each shifted row's sum of exponentials, subtracted. -/
abbrev opsD : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v37) subf ]

set_option maxRecDepth 8192 in
/-- The operation list is the four stretches in order. -/
theorem ops_eq : (ops : List (HloOp τ sig (Elt F))) = opsA ++ (opsB ++ (opsC ++ opsD)) := rfl

/-! ## Each stretch from any contents -/

variable (W : Valuation τ sig (Elt F))

set_option maxRecDepth 8192 in
/-- The first stretch leaves the hidden layer at its stage of the arguments it found. -/
theorem stageA_hidden : after opsA W (Proc.devRef .tc main_v18)
    = val_main_v18 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp <;> (try simp only [TRef.ofBuf, TRef.toBuf, cast_eq]) <;> rfl

set_option maxRecDepth 8192 in
/-- The first stretch writes no argument. -/
theorem stageA_args : after opsA W (Proc.devRef .tc main_arg1) = W (Proc.devRef .tc main_arg1) ∧ after opsA W (Proc.devRef .tc main_arg2) = W (Proc.devRef .tc main_arg2) ∧ after opsA W (Proc.devRef .tc main_arg3) = W (Proc.devRef .tc main_arg3)
    ∧ after opsA W (Proc.devRef .tc main_arg6) = W (Proc.devRef .tc main_arg6) ∧ after opsA W (Proc.devRef .tc main_arg7) = W (Proc.devRef .tc main_arg7) :=
  ⟨by after_results_simp, by after_results_simp, by after_results_simp, by after_results_simp, by after_results_simp⟩

set_option maxRecDepth 8192 in
/-- The second stretch, from contents that hold the hidden layer's stage and the arguments, leaves the second layer's
    linear part at its stage. -/
theorem stageB (x0 : (⟨S50000x100, .f32⟩ : BufTy).Contents (Elt F)) (x1 x2 : (⟨S800000, .i32⟩ : BufTy).Contents (Elt F)) (x3 : (⟨S800000, .f32⟩ : BufTy).Contents (Elt F)) (x4 : (⟨S100x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F))
    (h18 : W (Proc.devRef .tc main_v18) = val_main_v18 (F := F) x0 x1 x2 x3 x4 x5)
    (h1 : W (Proc.devRef .tc main_arg1) = x1) (h2 : W (Proc.devRef .tc main_arg2) = x2) (h3 : W (Proc.devRef .tc main_arg3) = x3) (h6 : W (Proc.devRef .tc main_arg6) = x6) (h7 : W (Proc.devRef .tc main_arg7) = x7) :
    after opsB W (Proc.devRef .tc main_v36) = val_main_v36 (F := F) x0 x1 x2 x3 x4 x5 x6 x7 := by
  after_results_simp
  rw [h18, h1, h2, h3, h6, h7]
  rfl

/-- The third stretch with the row reduction a PARAMETER `g`: the stretch only applies it, so what the stretch leaves
    can be read whatever the reduction is. -/
abbrev opsCg (g : (⟨S50000x40, .f32⟩ : BufTy).Contents (Elt F) → (⟨S_, .f32⟩ : BufTy).Contents (Elt F) → (⟨S50000, .f32⟩ : BufTy).Contents (Elt F)) : List (HloOp τ sig (Elt F)) :=
  [ TRef.nullary (TRef.of (T := ⟨S_, .f32⟩) main_call1_cst) (constant S_ .f32 0xFF800000#32),
    TRef.binary (TRef.of (T := ⟨S50000x40, .f32⟩) main_v36) (TRef.of (T := ⟨S_, .f32⟩) main_call1_cst) (TRef.of (T := ⟨S50000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v36) (TRef.of (T := ⟨S50000x40, .f32⟩) main_call1_v4) (TRef.of (T := ⟨S50000x40, .f32⟩) main_call1_v5) subf ]

/-- The third stretch is that list at the maximum-reduction over each row. -/
theorem opsC_eq : (opsC : List (HloOp τ sig (Elt F))) = opsCg (fun x v => Host.reduce FloatOps.maximumf x v reducesTo_S50000x40_S50000_d1 h_S_) := rfl

set_option maxRecDepth 8192 in
/-- Whatever the row reduction `g` is, the third stretch leaves its operand shifted, row by row, by the maximum of the
    least float and `g` of the operand. -/
theorem stageCg (g : (⟨S50000x40, .f32⟩ : BufTy).Contents (Elt F) → (⟨S_, .f32⟩ : BufTy).Contents (Elt F) → (⟨S50000, .f32⟩ : BufTy).Contents (Elt F)) (z : (⟨S50000x40, .f32⟩ : BufTy).Contents (Elt F))
    (h36 : W (Proc.devRef .tc main_v36) = z) :
    after (opsCg g) W (Proc.devRef .tc main_call1_v5)
      = subf z (broadcastInDim S50000x40 ![0, 1] bcast_S50000x1_S50000x40_0_1 (broadcastInDim S50000x1 ![0] bcast_S50000_S50000x1_0
          (maximumf (broadcastInDim S50000 ![] bcast_S_S50000 (constant (F := F) S_ .f32 0xFF800000#32))
            (g z (constant (F := F) S_ .f32 0xFF800000#32))))) := by
  after_results_simp
  simp only [TRef.ofBuf, TRef.toBuf, cast_eq]
  rw [h36]

set_option maxRecDepth 8192 in
/-- The third stretch leaves the shifted rows at their stage. -/
theorem stageC (x0 : (⟨S50000x100, .f32⟩ : BufTy).Contents (Elt F)) (x1 x2 : (⟨S800000, .i32⟩ : BufTy).Contents (Elt F)) (x3 : (⟨S800000, .f32⟩ : BufTy).Contents (Elt F)) (x4 : (⟨S100x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F))
    (h36 : W (Proc.devRef .tc main_v36) = val_main_v36 (F := F) x0 x1 x2 x3 x4 x5 x6 x7) :
    after opsC W (Proc.devRef .tc main_call1_v5) = val_main_call1_v5 (F := F) x0 x1 x2 x3 x4 x5 x6 x7 := by
  rw [opsC_eq]
  exact stageCg W _ _ h36

set_option maxRecDepth 8192 in
/-- The fourth stretch leaves the result at its stage. -/
theorem stageD (x0 : (⟨S50000x100, .f32⟩ : BufTy).Contents (Elt F)) (x1 x2 : (⟨S800000, .i32⟩ : BufTy).Contents (Elt F)) (x3 : (⟨S800000, .f32⟩ : BufTy).Contents (Elt F)) (x4 : (⟨S100x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F))
    (h5 : W (Proc.devRef .tc main_call1_v5) = val_main_call1_v5 (F := F) x0 x1 x2 x3 x4 x5 x6 x7) :
    after opsD W (Proc.devRef .tc main_v37) = val_main_v37 (F := F) x0 x1 x2 x3 x4 x5 x6 x7 := by
  after_results_simp
  simp only [TRef.ofBuf, TRef.toBuf, cast_eq]
  rw [h5]
  rfl

/-! ## The whole list -/

/-- From any contents the sixty operations leave the result buffer at the last stage of the arguments found. -/
theorem after_ops_result : after ops W (Proc.devRef .tc main_v37)
    = val_main_v37 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_eq, after_append, after_append, after_append]
  obtain ⟨e1, e2, e3, e6, e7⟩ := stageA_args W
  exact stageD _ _ _ _ _ _ _ _ _ (stageC _ _ _ _ _ _ _ _ _ (stageB _ _ _ _ _ _ _ _ _ (stageA_hidden W) e1 e2 e3 e6 e7))

set_option maxRecDepth 8192 in
set_option maxHeartbeats 2000000 in
/-- THE REFERENCE'S RUN: every weakly fair execution of @main terminates with the result at the last stage of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v37).trans (after_ops_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_after m ρ)

end Cert.ReferenceIdeal.Stages

end
-- ==== Proof.RefValue.lean ====
/-
  The reference's stages are the layers, entry by entry.

  Read one operation at a time at the extended reals: the first dot_general at (p, q) is the sum over k of the summed
  features at (p, k) times the weights at (k, q), the bias row is broadcast along the rows, and the maximum with the
  zero splat gives the first layer. The second dot_general and bias give the second layer's linear part of the hidden
  layer and its aggregate. The row reduction with maximum is a fold of max from the least float over the row's forty
  entries, and the maximum of that fold with the least float again is the fold; the shifted entries, the sum of their
  exponentials (from a zero initial value) and its logarithm are then the row's log-softmax.
-/
import proofs.«149022_j57458072485949_1_alg».proof.Proof.RefRead
import proofs.«149022_j57458072485949_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.ReadP Cert.Gcn

/-! ## The stages' index maps at an entry -/

theorem lidx14 (p : Fin 50000) (q : Fin 128) (k : Fin 100) : lidx_main_v14 (ix2 p q) k = ix2 p k :=
  funext fun a => Fin.ext (by match a with | ⟨0, _⟩ => rfl | ⟨1, _⟩ => rfl)
theorem ridx14 (p : Fin 50000) (q : Fin 128) (k : Fin 100) : ridx_main_v14 (ix2 p q) k = ix2 k q :=
  funext fun a => Fin.ext (by match a with | ⟨0, _⟩ => rfl | ⟨1, _⟩ => rfl)
theorem bidx16 (p : Fin 50000) (q : Fin 128) : idx_main_v15 (idx_main_v16 (ix2 p q)) = ix1 q :=
  funext fun a => Fin.ext (by match a with | ⟨0, _⟩ => rfl)
theorem lidx33 (p : Fin 50000) (q : Fin 40) (k : Fin 128) : lidx_main_v33 (ix2 p q) k = ix2 p k :=
  funext fun a => Fin.ext (by match a with | ⟨0, _⟩ => rfl | ⟨1, _⟩ => rfl)
theorem ridx33 (p : Fin 50000) (q : Fin 40) (k : Fin 128) : ridx_main_v33 (ix2 p q) k = ix2 k q :=
  funext fun a => Fin.ext (by match a with | ⟨0, _⟩ => rfl | ⟨1, _⟩ => rfl)
theorem bidx35 (p : Fin 50000) (q : Fin 40) : idx_main_v34 (idx_main_v35 (ix2 p q)) = ix1 q :=
  funext fun a => Fin.ext (by match a with | ⟨0, _⟩ => rfl)
theorem midx (p : Fin 50000) (q : Fin 40) : idx_main_call1_v3 (idx_main_call1_v4 (ix2 p q)) = ix1 p :=
  funext fun a => Fin.ext (by match a with | ⟨0, _⟩ => rfl)
theorem sidx (p : Fin 50000) (q : Fin 40) : idx_main_call1_v8 (idx_main_call1_v10 (ix2 p q)) = ix1 p :=
  funext fun a => Fin.ext (by match a with | ⟨0, _⟩ => rfl)
theorem kidx (p : Fin 50000) (k : Fin 40) : idx_main_call1_v7 (ix1 p) k = ix2 p k :=
  funext fun a => Fin.ext (by match a with | ⟨0, _⟩ => rfl | ⟨1, _⟩ => rfl)
/-- The index a reduction over the second axis reads at row p and position k is (p, k). -/
theorem lift_row (hr : S50000x40.Reduces [1] S50000) (p : Fin 50000) (k : Fin 40) : hr.lift (ix1 p) k = ix2 p k :=
  funext fun a => Fin.ext (by match a with | ⟨0, _⟩ => rfl | ⟨1, _⟩ => rfl)

variable (x0 : (⟨S50000x100, .f32⟩ : BufTy).Contents (Elt Ideal)) (x1 x2 : (⟨S800000, .i32⟩ : BufTy).Contents (Elt Ideal)) (x3 : (⟨S800000, .f32⟩ : BufTy).Contents (Elt Ideal)) (x4 : (⟨S100x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))

/-! ## The first layer -/

/-- The hidden layer's stage at (p, q): the first layer of the features and their aggregate's stage. -/
theorem hidden_at (p : Fin 50000) (q : Fin 128) :
    val_main_v18 (F := Ideal) x0 x1 x2 x3 x4 x5 (ix2 p q) = hiddenAt x0 (val_main_v12 (F := Ideal) x0 x1 x2 x3) x4 x5 p q := by
  rw [val_main_v18_apply, val_main_v17_apply, val_main_v14_apply, val_main_v16_apply, val_main_v15_apply,
    val_main_call0_v0_apply, val_main_call0_cst_apply]
  simp only [lidx14, ridx14, bidx16, val_main_v13_apply]
  rfl

theorem hidden_eq : val_main_v18 (F := Ideal) x0 x1 x2 x3 x4 x5 = hiddenArr x0 (val_main_v12 (F := Ideal) x0 x1 x2 x3) x4 x5 :=
  funext fun i => by
    obtain ⟨p, q, rfl⟩ : ∃ (p : Fin 50000) (q : Fin 128), i = ix2 p q := ⟨i 0, i 1, eq_ix2 i⟩
    rw [hiddenArr_ix2]
    exact hidden_at x0 x1 x2 x3 x4 x5 p q

/-! ## The second layer -/

/-- The second layer's linear part at (p, q), of the hidden layer's stage and its aggregate's stage. -/
theorem logit_at (p : Fin 50000) (q : Fin 40) :
    val_main_v36 (F := Ideal) x0 x1 x2 x3 x4 x5 x6 x7 (ix2 p q)
      = linAt (val_main_v18 (F := Ideal) x0 x1 x2 x3 x4 x5) (val_main_v31 (F := Ideal) x0 x1 x2 x3 x4 x5) x6 x7 p q := by
  rw [val_main_v36_apply, val_main_v33_apply, val_main_v35_apply, val_main_v34_apply]
  simp only [lidx33, ridx33, bidx35, val_main_v32_apply]
  rfl

/-- The host's reduction with a maximum body over a row, from the least float: the fold of max over the row's entries. -/
theorem hostRowMax (z : FVec Ideal S50000x40 .f32) (h' : S50000x40.ReducesTo [1] S50000) (h : S50000x40.Reduces [1] S50000)
    (hu : 0 < S_.numel) (p : Fin 50000) :
    Host.reduce FloatOps.maximumf z (constant (F := Ideal) S_ .f32 0xFF800000#32) h' hu (ix1 p) = rowMax fun j => z (ix2 p j) := by
  rw [Host.reduce_eq_fold_single FloatOps.maximumf z _ h' h hu]
  have hf : (z ∘ h.lift (ix1 p)) = fun j : Fin 40 => z (ix2 p j) := funext fun k => congrArg z (lift_row h p k)
  exact congrArg (fun f => Finset.fold max (Ideal.ofBits .f32 0xFF800000#32) f (Finset.univ : Finset (Fin 40))) hf

/-- A row's maximum as the reference takes it: the reduction's fold of max from the least float, and the maximum of that
    with the least float once more. -/
theorem rowmax_at (p : Fin 50000) :
    val_main_call1_v2 (F := Ideal) x0 x1 x2 x3 x4 x5 x6 x7 (ix1 p) = rowMax fun j => val_main_v36 (F := Ideal) x0 x1 x2 x3 x4 x5 x6 x7 (ix2 p j) := by
  rw [val_main_call1_v2_apply, val_main_call1_v1_apply, val_main_call1_cst_0_apply]
  unfold val_main_call1_v0 val_main_call1_cst
  rw [hostRowMax _ reducesTo_S50000x40_S50000_d1 (by decide) h_S_ p]
  exact max_least_rowMax _

/-- THE RESULT'S STAGE at (p, q): the log-softmax of row p of the second layer's linear part. -/
theorem out_at (p : Fin 50000) (q : Fin 40) :
    val_main_v37 (F := Ideal) x0 x1 x2 x3 x4 x5 x6 x7 (ix2 p q)
      = outAt (val_main_v18 (F := Ideal) x0 x1 x2 x3 x4 x5) (val_main_v31 (F := Ideal) x0 x1 x2 x3 x4 x5) x6 x7 p q := by
  unfold outAt lsmAt
  simp only [← logit_at x0 x1 x2 x3 x4 x5 x6 x7]
  rw [val_main_v37_apply, val_main_call1_v5_apply, val_main_call1_v4_apply, val_main_call1_v3_apply, midx, rowmax_at,
    val_main_call1_v10_apply, val_main_call1_v9_apply, val_main_call1_v8_apply, sidx, val_main_call1_v7_apply,
    val_main_call1_cst_1_apply]
  simp only [kidx, val_main_call1_v6_apply, val_main_call1_v5_apply, val_main_call1_v4_apply, val_main_call1_v3_apply, midx, rowmax_at]
  show (_ - _) - Ideal.log (Ideal.ofBits .f32 0x00000000#32 + ∑ k : Fin 40, Ideal.exp (_ - _)) = _
  rw [Ideal.ofBits_zero_f32, zero_add]

theorem out_eq : val_main_v37 (F := Ideal) x0 x1 x2 x3 x4 x5 x6 x7
    = outArr (val_main_v18 (F := Ideal) x0 x1 x2 x3 x4 x5) (val_main_v31 (F := Ideal) x0 x1 x2 x3 x4 x5) x6 x7 :=
  funext fun i => by
    obtain ⟨p, q, rfl⟩ : ∃ (p : Fin 50000) (q : Fin 40), i = ix2 p q := ⟨i 0, i 1, eq_ix2 i⟩
    rw [outArr_ix2]
    exact out_at x0 x1 x2 x3 x4 x5 x6 x7 p q

end Cert.ReferenceIdeal.RefValue

end
-- ==== Proof.Bridge.lean ====
/-
  The two programs' results are one function of the arguments.

  Both programs compute the neighbourhood aggregates by the same host operations, each over its own copy of the same
  shapes and dimension numbers: the reference's aggregate stages are the kernel program's two aggregates. With the
  reference's stages read as the layers, its last stage is then the second layer of the hidden layer and its aggregate,
  the hidden layer being the first layer of the features and their aggregate: the kernel program's result.
-/
import proofs.«149022_j57458072485949_1_alg».proof.Proof.KerHost
import proofs.«149022_j57458072485949_1_alg».proof.Proof.RefValue

noncomputable section

namespace Cert.Bridge

open Idealize.ShloMosaic Cert.Gcn
open Cert.ReferenceIdeal.ReadP (val_main_v12 val_main_v18 val_main_v31 val_main_v37)
open Cert.KernelIdeal.Host (aggA aggB)

variable (x0 : (⟨Cert.ReferenceIdeal.S50000x100, .f32⟩ : BufTy).Contents (Elt Ideal)) (x1 x2 : (⟨Cert.ReferenceIdeal.S800000, .i32⟩ : BufTy).Contents (Elt Ideal)) (x3 : (⟨Cert.ReferenceIdeal.S800000, .f32⟩ : BufTy).Contents (Elt Ideal)) (x4 : (⟨Cert.ReferenceIdeal.S100x128, .f32⟩ : BufTy).Contents (Elt Ideal)) (x5 : (⟨Cert.ReferenceIdeal.S128, .f32⟩ : BufTy).Contents (Elt Ideal)) (x6 : (⟨Cert.ReferenceIdeal.S128x40, .f32⟩ : BufTy).Contents (Elt Ideal)) (x7 : (⟨Cert.ReferenceIdeal.S40, .f32⟩ : BufTy).Contents (Elt Ideal))

/-- The reference's first aggregate stage is the kernel program's aggregate of the features. -/
theorem aggA_eq : val_main_v12 (F := Ideal) x0 x1 x2 x3 = aggA (F := Ideal) x0 x1 x2 x3 := rfl

/-- The reference's second aggregate stage is the kernel program's aggregate of the hidden layer's stage. -/
theorem aggB_eq : val_main_v31 (F := Ideal) x0 x1 x2 x3 x4 x5 = aggB (F := Ideal) (val_main_v18 (F := Ideal) x0 x1 x2 x3 x4 x5) x1 x2 x3 := rfl

/-- THE REFERENCE'S RESULT is the kernel program's result function of the same arguments. -/
theorem result_eq : val_main_v37 (F := Ideal) x0 x1 x2 x3 x4 x5 x6 x7
    = outArr (hiddenArr x0 (aggA (F := Ideal) x0 x1 x2 x3) x4 x5)
        (aggB (F := Ideal) (hiddenArr x0 (aggA (F := Ideal) x0 x1 x2 x3) x4 x5) x1 x2 x3) x6 x7 := by
  rw [Cert.ReferenceIdeal.RefValue.out_eq, aggB_eq, Cert.ReferenceIdeal.RefValue.hidden_eq, aggA_eq]

end Cert.Bridge

end
-- ==== Proof.lean ====
/-
  The kernel computes a two-layer graph network: with A the sparse adjacency (edge lists and edge values), a layer maps
  features x to (x + A x) W + b; the first layer ends in the maximum with zero, the second in each row's log-softmax.
  The kernel program takes both aggregates A x on the host and runs each layer's dense part as a pallas_call over blocks
  of 5000 rows (the sum of the two blocks, a bf16 product with the whole weight matrix into a zero accumulator, the bias
  row, then the layer's last step); the reference takes the same aggregates by the same host operations and the dense
  parts as whole-array operations. At the extended reals the change of float format is the identity and both products
  are the plain sum over the contracted index, a row of a layer depends on that row of its operands only, and the
  row's maximum and sum are the same folds on both sides: the two results are one function of the arguments, with no
  appeal to the arguments' finiteness.

  The frames of the two kernel programs are the generated ones; the reference's frame is its run with the result
  dropped. The idealization rewrote no operation, so there is nothing to preserve.
-/
import proofs.«149022_j57458072485949_1_alg».proof.Defs
import proofs.«149022_j57458072485949_1_alg».proof.Proof.Gen.Kernel
import proofs.«149022_j57458072485949_1_alg».proof.Proof.Gen.Kernel.Frame
import proofs.«149022_j57458072485949_1_alg».proof.Proof.Gen.KernelIdeal
import proofs.«149022_j57458072485949_1_alg».proof.Proof.Gen.KernelIdeal.Frame
import proofs.«149022_j57458072485949_1_alg».proof.Proof.Gen.ReferenceIdeal
import proofs.«149022_j57458072485949_1_alg».proof.Proof.Gen.Pre_finite_inputs
import proofs.«149022_j57458072485949_1_alg».proof.Proof.KerLaunch
import proofs.«149022_j57458072485949_1_alg».proof.Proof.KerHost
import proofs.«149022_j57458072485949_1_alg».proof.Proof.RefStages
import proofs.«149022_j57458072485949_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- The kernel program's result buffer ends at the second layer of the hidden layer and its aggregate (the launch's
    final contents, read back through the two calls and the two host stretches); the reference's ends at its last
    stage, which is that function of arguments that agree. -/
theorem algebraic : Cert.algebraic_KernelIdeal_ReferenceIdeal := by
  intro m ρ m' ρ' _ hagree
  refine ⟨fun c => Cert.KernelIdeal.Host.resultOf m c, ?_, ?_⟩
  · exact (θ_run Cert.KernelIdeal.defs _ _).mono
      (fun r h c => ⟨(h c).1.trans (Cert.KernelIdeal.Host.W4_result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Stages.run (F := Ideal) m' ρ')
    obtain ⟨a0, a1, a2, a3, a4, a5, a6, a7⟩ := hagree c
    rw [a0, a1, a2, a3, a4, a5, a6, a7]
    exact Cert.Bridge.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
